-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_arg4 : FVec F S1x1024x2048 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S1x1024x2048 .f32 := Host.absf main_arg4
  let main_cst_6 : FVec F S_ .f32 := constant S_ .f32 0x7F800000#32
  let main_v20 : FVec F S1x1024x2048 .f32 := broadcastInDim S1x1024x2048 ![] bcast_S_S1x1024x2048 main_cst_6
  let main_v21 : IVec S1x1024x2048 1 := cmpf .olt main_v19 main_v20
  let main_c_7 : IVec S_ 1 := constantI S_ 1 1#1
  let main_v22 : IVec S_ 1 := (fun x v => Host.reduce IntOp.andi x v reducesTo_S1x1024x2048_S_d0_1_2 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x2 .f32) (main_arg3 : FVec F S8x2048x1024 .f32) (main_arg4 : FVec F S1x1024x2048 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x2 .f32 := Host.absf main_arg2
  let main_cst_2 : FVec F S_ .f32 := constant S_ .f32 0x7F800000#32
  let main_v10 : FVec F S8x2048x2 .f32 := broadcastInDim S8x2048x2 ![] bcast_S_S8x2048x2 main_cst_2
  let main_v11 : IVec S8x2048x2 1 := cmpf .olt main_v9 main_v10
  let main_c_3 : IVec S_ 1 := constantI S_ 1 1#1
  let main_v12 : IVec S_ 1 := (fun x v => Host.reduce IntOp.andi x v reducesTo_S8x2048x2_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_v13 main_v16
-- ==== Kernel.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2, .f32⟩
  | .hbm, ⟨3, _⟩ => ⟨S8x2048x1024, .f32⟩
  | .hbm, ⟨4, _⟩ => ⟨S1x1024x2048, .f32⟩
  | .hbm, ⟨5, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  transposes_S512x1024_p1_0_S1024x512 : S512x1024.Transposes [1, 0] S1024x512
  shapeCasts_S512x1024_S1x512x1024 : S512x1024.ShapeCasts S1x512x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .f32 = 32 ∨ (Rect.block (s := S8x2048x1024) S1x512x1024.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2 : Shape := ⟨3, ![8, 2048, 2]⟩
abbrev S1x1024x2048 : Shape := ⟨3, ![1, 1024, 2048]⟩
abbrev S8x2048x2048 : Shape := ⟨3, ![8, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2, .f32⟩
  | .hbm, ⟨3, _⟩ => ⟨S8x2048x1024, .f32⟩
  | .hbm, ⟨4, _⟩ => ⟨S1x1024x2048, .f32⟩
  | .hbm, ⟨5, _⟩ => ⟨S8x2048x2048, .f32⟩
  | .hbm, ⟨6, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Attention.lean ====
/-
  The function both programs compute, on the extended reals. With Q, K, V of shape [8, 2048, 1024],

      out[b, r, h] = ∑ n < 2048, (∑ k < 1024, Q[b, r, k] · K[b, n, k]) · V[b, n, h]:

  the unscaled scores Q·Kᵀ of batch b applied to V, with no softmax. The 2048 keys are cut into 4 tiles of
  512 consecutive keys; tile j contributes the partial sum over its own keys, and the whole sum is the
  four contributions added one after the other onto zero, ((((0 + T₀) + T₁) + T₂) + T₃). Only the
  commutative-monoid laws of addition are used, so this holds for every extended real, infinities included.
-/
import Idealize.ShloMosaic.PureOps.Ideal
import Idealize.ShloMosaic.Lib.ValueIdx
import proofs.«165886_j56736517980684_1_alg».proof.Proof.LibTiles

noncomputable section

namespace Cert.Attention

open Idealize.ShloMosaic Idealize.ShloMosaic.ValueIdx

/-- An array of shape [8, 2048, 1024] of extended reals: queries, keys, values and the result. -/
abbrev Arr : Type := (⟨3, ![8, 2048, 1024]⟩ : Shape).Idx → EReal

/-- Key n of tile j, among 4 tiles of 512 keys: key j · 512 + n of the 2048. -/
def keyOf (j : Fin 4) (n : Fin 512) : Fin 2048 := ⟨j.val * 512 + n.val, Cert.LibTiles.tile_lt j n⟩

/-- Row p of row tile g, among 4 tiles of 512 query rows: row g · 512 + p of the 2048. -/
def rowOf (g : Fin 4) (p : Fin 512) : Fin 2048 := ⟨g.val * 512 + p.val, Cert.LibTiles.tile_lt g p⟩

/-- The score of query row r against key n in batch b: the inner product over the 1024 features. -/
def score (q k : Arr) (b : Fin 8) (r n : Fin 2048) : EReal :=
  ∑ f : Fin 1024, q (ix3 b r f) * k (ix3 b n f)

/-- The result: each query row's scores against all 2048 keys, applied to the values. -/
def out (q k v : Arr) : Arr :=
  fun i => ∑ n : Fin 2048, score q k (i 0) (i 1) n * v (ix3 (i 0) n (i 2))

/-- What key tile j contributes to out[b, r, h]: the sum over that tile's 512 keys. -/
def tileTerm (q k v : Arr) (b : Fin 8) (r : Fin 2048) (h : Fin 1024) (j : Fin 4) : EReal :=
  ∑ n : Fin 512, score q k b r (keyOf j n) * v (ix3 b (keyOf j n) h)

/-- The running sum after key tiles 0 … s, started from zero and added to in tile order. Past the last
    tile nothing more is added. -/
def running (q k v : Arr) (b : Fin 8) (r : Fin 2048) (h : Fin 1024) : ℕ → EReal
  | 0 => 0 + tileTerm q k v b r h 0
  | s + 1 => running q k v b r h s + (if hs : s + 1 < 4 then tileTerm q k v b r h ⟨s + 1, hs⟩ else 0)

/-- The sum over all 2048 keys is the running sum after the fourth tile. -/
theorem out_eq_running (q k v : Arr) (b : Fin 8) (r : Fin 2048) (h : Fin 1024) :
    out q k v (ix3 b r h) = running q k v b r h 3 := by
  show (∑ n : Fin (4 * 512), score q k b r n * v (ix3 b n h)) = _
  rw [Cert.LibTiles.tile_sum 4 512, Fin.sum_univ_four]
  simp only [running]
  rw [dif_pos (by decide : 0 + 1 < 4), dif_pos (by decide : 1 + 1 < 4), dif_pos (by decide : 2 + 1 < 4), zero_add]
  rfl

end Cert.Attention

end
-- ==== Proof.Blocks.lean ====
/-
  Where a grid step's blocks sit in the arrays. The grid is 8 batches by 4 row tiles by 4 key tiles, walked
  with the key tile fastest: step t works on batch t / 16, row tile (t / 4) mod 4 and key tile t mod 4. Its
  query block is rows g · 512 … g · 512 + 511 of that batch's queries, its key and value blocks are keys
  j · 512 … j · 512 + 511 of that batch's keys and values (a block's coordinate is always block index × block
  size + the coordinate inside the block). So the product the step adds to the accumulator is, entry by
  entry, what key tile j contributes to the result.
-/
import proofs.«165886_j56736517980684_1_alg».proof.Proof.Gen.KernelIdeal.Value
import proofs.«165886_j56736517980684_1_alg».proof.Proof.Attention

noncomputable section

namespace Cert.KernelIdeal.Blocks

open Cert.KernelIdeal Cert.KernelIdeal.Gen Idealize.ShloMosaic Idealize.ShloMosaic.TcCoe Idealize.SL.Sem
open Idealize.ShloMosaic.ValueIdx Cert.Attention

variable (m : (ℓ : Loc nD τ sig) → Buf (Elt Ideal) ℓ)

/-- The grid has 128 steps. -/
theorem steps : cfg0.N = 128 := N_0

/-- The batch step t works on. -/
def batchOf (t : Fin cfg0.N) : Fin 8 := ⟨t.val / 16, by have := t.isLt; have := steps; omega⟩
/-- The row tile step t works on. -/
def rowTileOf (t : Fin cfg0.N) : Fin 4 := ⟨t.val / 4 % 4, Nat.mod_lt _ (by decide)⟩
/-- The key tile step t works on. -/
def keyTileOf (t : Fin cfg0.N) : Fin 4 := ⟨t.val % 4, Nat.mod_lt _ (by decide)⟩

/-- The printed index maps in closed form, decided over the grid: queries and result move with (batch, row
    tile), keys and values with (batch, key tile); no window moves along the feature axis. -/
theorem index_maps : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- The arrays as the kernel finds them: queries, keys, values. -/
abbrev queries (c : Dev nD) : Arr := m ((c : Thread nD τ).loc main_arg0)
abbrev keys (c : Dev nD) : Arr := m ((c : Thread nD τ).loc main_arg1)
abbrev values (c : Dev nD) : Arr := m ((c : Thread nD τ).loc main_arg3)

/-- Step t's blocks, at their literal shape. -/
abbrev qblk (c : Dev nD) (t : Fin cfg0.N) : Vec Ideal S1x512x1024 .f32 := iblk m c 0 t
abbrev kblk (c : Dev nD) (t : Fin cfg0.N) : Vec Ideal S1x512x1024 .f32 := iblk m c 1 t
abbrev vblk (c : Dev nD) (t : Fin cfg0.N) : Vec Ideal S1x512x1024 .f32 := iblk m c 2 t

/-- Row p, feature f of step t's query block is row g · 512 + p of batch b's queries. -/
theorem qblk_apply (c : Dev nD) (t : Fin cfg0.N) (u : Fin 1) (p : Fin 512) (f : Fin 1024) :
    qblk m c t (ix3 u p f) = queries m c (ix3 (batchOf t) (rowOf (rowTileOf t) p) f) := by
  obtain ⟨e0, e1, e2, -⟩ := index_maps t
  show V m c main_arg0 (((cfg0.win 0).blk t).view.emb (ix3 u p f)) = _
  refine congrArg (V m c main_arg0) ?_
  funext a; apply Fin.ext
  match a with
  | ⟨0, _⟩ => show win0_0.index t (0 : Fin 3) * 1 + 1 * u.val = t.val / 16; omega
  | ⟨1, _⟩ => show win0_0.index t (1 : Fin 3) * 512 + 1 * p.val = t.val / 4 % 4 * 512 + p.val; omega
  | ⟨2, _⟩ => show win0_0.index t (2 : Fin 3) * 1024 + 1 * f.val = f.val; omega

/-- Key n, feature f of step t's key block is key j · 512 + n of batch b's keys. -/
theorem kblk_apply (c : Dev nD) (t : Fin cfg0.N) (u : Fin 1) (n : Fin 512) (f : Fin 1024) :
    kblk m c t (ix3 u n f) = keys m c (ix3 (batchOf t) (keyOf (keyTileOf t) n) f) := by
  obtain ⟨-, -, -, e0, e1, e2, -⟩ := index_maps t
  show V m c main_arg1 (((cfg0.win 1).blk t).view.emb (ix3 u n f)) = _
  refine congrArg (V m c main_arg1) ?_
  funext a; apply Fin.ext
  match a with
  | ⟨0, _⟩ => show win0_1.index t (0 : Fin 3) * 1 + 1 * u.val = t.val / 16; omega
  | ⟨1, _⟩ => show win0_1.index t (1 : Fin 3) * 512 + 1 * n.val = t.val % 4 * 512 + n.val; omega
  | ⟨2, _⟩ => show win0_1.index t (2 : Fin 3) * 1024 + 1 * f.val = f.val; omega

/-- Key n, feature h of step t's value block is key j · 512 + n of batch b's values. -/
theorem vblk_apply (c : Dev nD) (t : Fin cfg0.N) (u : Fin 1) (n : Fin 512) (h : Fin 1024) :
    vblk m c t (ix3 u n h) = values m c (ix3 (batchOf t) (keyOf (keyTileOf t) n) h) := by
  obtain ⟨-, -, -, -, -, -, e0, e1, e2, -⟩ := index_maps t
  show V m c main_arg3 (((cfg0.win 2).blk t).view.emb (ix3 u n h)) = _
  refine congrArg (V m c main_arg3) ?_
  funext a; apply Fin.ext
  match a with
  | ⟨0, _⟩ => show win0_2.index t (0 : Fin 3) * 1 + 1 * u.val = t.val / 16; omega
  | ⟨1, _⟩ => show win0_2.index t (1 : Fin 3) * 512 + 1 * n.val = t.val % 4 * 512 + n.val; omega
  | ⟨2, _⟩ => show win0_2.index t (2 : Fin 3) * 1024 + 1 * h.val = h.val; omega

/-- The product step t adds at entry (p, h) is key tile j's contribution to the result at row g · 512 + p. -/
theorem tile_of_blocks (c : Dev nD) (t : Fin cfg0.N) (p : Fin 512) (h : Fin 1024) :
    (∑ j : Fin 512, (∑ f : Fin 1024, qblk m c t (ix3 0 p f) * kblk m c t (ix3 0 j f)) * vblk m c t (ix3 0 j h))
      = tileTerm (queries m c) (keys m c) (values m c) (batchOf t) (rowOf (rowTileOf t) p) h (keyTileOf t) := by
  unfold tileTerm score
  refine Finset.sum_congr rfl fun j _ => ?_
  rw [vblk_apply]
  refine congrArg (· * _) ?_
  refine Finset.sum_congr rfl fun f _ => ?_
  rw [qblk_apply, kblk_apply]

end Cert.KernelIdeal.Blocks

end
-- ==== Proof.Pieces.lean ====
/-
  What one grid step leaves behind, case by case, as values. The accumulator block (512 query rows by 1024
  features) is carried from step to step. At the first key tile of a row tile the step clears it and then
  adds that tile's product onto the zero block; at a later key tile it adds the tile's product onto what the
  step before left; at the last key tile it does the same and then copies the accumulator into the output
  block. Each value is the step's one covering store read back, with every load it depends on read from the
  whole buffer it came from.
-/
import proofs.«165886_j56736517980684_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The zero offsets of a rank-2 access. -/
theorem off2 : (![0, 0] : Fin 2 → Nat) = fun _ => 0 := funext fun a => by fin_cases a <;> rfl
/-- The zero offsets of a rank-3 access. -/
theorem off3 : (![0, 0, 0] : Fin 3 → Nat) = fun _ => 0 := funext fun a => by fin_cases a <;> rfl

/-- First key tile: the accumulator is cleared, read back as the zero block, and the tile's product is added
    onto it. -/
theorem acc_first (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond0_0 i) (hc1 : ¬cond0_1 i)
    (x0 x1 x2 : Vec F S1x512x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) off2]
  simp only [View.readAt_eq_ld, harg3.read_unread, harg4.read_unread, harg5.read_unread,
    View.readCov_unit_zero (S := S512x1024) _ off2, View.ld_unit_zero (S := S1x512x1024) off3,
    View.ld_unit_zero (S := S512x1024) off2]

/-- A middle key tile: the tile's product is added onto what the step before left. -/
theorem acc_middle (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : ¬cond0_1 i)
    (x0 x1 x2 : Vec F S1x512x1024 .f32) (xs0 : Vec F S512x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero off2]
  simp only [View.readAt_eq_ld, harg3.read_unread, harg4.read_unread, harg5.read_unread, harg7.read_unread,
    View.ld_unit_zero (S := S1x512x1024) off3, View.ld_unit_zero (S := S512x1024) off2]

/-- The last key tile leaves the same in the accumulator: what the step before left plus the tile's product. -/
theorem acc_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : cond0_1 i)
    (x0 x1 x2 : Vec F S1x512x1024 .f32) (xs0 : Vec F S512x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero off2]
  simp only [View.readAt_eq_ld, harg3.read_unread, harg4.read_unread, harg5.read_unread, harg7.read_unread,
    View.ld_unit_zero (S := S1x512x1024) off3, View.ld_unit_zero (S := S512x1024) off2]

/-- The last key tile's output block: the accumulator it has just stored, read back and given a leading unit
    axis. -/
theorem out_last (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond0_0 i) (hc1 : cond0_1 i)
    (x0 x1 x2 : Vec F S1x512x1024 .f32) (xs0 : Vec F S512x1024 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero off3]
  simp only [View.readAt_eq_ld, harg3.read_unread, harg4.read_unread, harg5.read_unread, harg7.read_unread,
    View.readCov_unit_zero (S := S512x1024) _ off2, View.ld_unit_zero (S := S1x512x1024) off3,
    View.ld_unit_zero (S := S512x1024) off2]

end Cert.KernelIdeal.Pieces

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Payload.lean ====
/-
  The step's arithmetic read at one entry, on the extended reals (where a change of float format is the
  identity and a product into the zero block is the plain sum of products). With q, k, v the step's blocks of
  queries, keys and values (each [1, 512, 1024]) and acc the accumulator it finds:

      new[p, h] = acc[p, h] + ∑ j < 512, (∑ f < 1024, q[0, p, f] · k[0, j, f]) · v[0, j, h].

  The inner sum is the score of query row p against key j of the tile: the kernel transposes the key block
  and multiplies, so entry (f, j) of the transposed block is entry (j, f) of the key block. The cleared
  accumulator reads 0 everywhere, and the output block is the accumulator under a leading unit axis.
-/
import proofs.«165886_j56736517980684_1_alg».proof.Proof.Gen.KernelIdeal.Skeleton
import proofs.«165886_j56736517980684_1_alg».proof.Proof.LibContract
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe
open Idealize.ShloMosaic.ValueIdx

/-- The cleared accumulator reads zero at every entry. -/
theorem cleared_apply (p : Fin 512) (h : Fin 1024) : k0_pay1 (F := Ideal) (ix2 p h) = 0 := by
  unfold k0_pay1
  simp only [shapeCast_self]
  exact Ideal.ofBits_zero_f32

/-- One step's new accumulator at entry (p, h): the old entry plus the tile's scores of row p applied to
    column h of the tile's values. -/
theorem step_apply (q k v : Vec Ideal S1x512x1024 .f32) (acc : Vec Ideal S512x1024 .f32) (p : Fin 512) (h : Fin 1024) :
    k0_pay2 (F := Ideal) q k v acc (ix2 p h)
      = acc (ix2 p h) + ∑ j : Fin 512, (∑ f : Fin 1024, q (ix3 0 p f) * k (ix3 0 j f)) * v (ix3 0 j h) := by
  unfold k0_pay2
  simp only [shapeCast_self]
  refine congrArg (acc (ix2 p h) + ·) ?_
  refine (Cert.LibDense.matmul_plain_zero_apply 512 512 1024 none _ _ p h).trans ?_
  refine Finset.sum_congr rfl fun j _ => ?_
  congr 1
  · refine (Cert.LibDense.matmul_plain_zero_apply 512 1024 512 none _ _ p j).trans ?_
    refine Finset.sum_congr rfl fun f _ => ?_
    congr 1
    · exact shapeCast_1ab_ab_apply q _ p f
    · refine (transpose_ix2_apply _ _ f j).trans ?_
      exact shapeCast_1ab_ab_apply k _ j f
  · exact shapeCast_1ab_ab_apply v _ j h

/-- The output block is the accumulator with a leading unit axis. -/
theorem copy_apply (a : Vec Ideal S512x1024 .f32) (u : Fin 1) (p : Fin 512) (h : Fin 1024) :
    k0_pay3 (F := Ideal) a (ix3 u p h) = a (ix2 p h) := by
  unfold k0_pay3
  exact shapeCast_ab_1ab_apply a _ u p h

end Cert.KernelIdeal.Payload

end
-- ==== Proof.Accumulate.lean ====
/-
  The accumulator across the grid. Within one (batch, row tile) the four key tiles are visited in order, the
  accumulator cleared at the first. So after the step on key tile s the accumulator holds, at entry (p, h),
  the running sum of the contributions of key tiles 0 … s to the result at row g · 512 + p: zero plus the first
  tile's term at the first step, and one more tile's term at each later step. By induction on the step; the
  step before a later key tile is in the same batch and row tile, one key tile earlier.
-/
import proofs.«165886_j56736517980684_1_alg».proof.Proof.Blocks
import proofs.«165886_j56736517980684_1_alg».proof.Proof.Pieces
import proofs.«165886_j56736517980684_1_alg».proof.Proof.Payload

noncomputable section

namespace Cert.KernelIdeal.Accumulate

open Cert.KernelIdeal Cert.KernelIdeal.Gen Idealize.ShloMosaic Idealize.ShloMosaic.TcCoe Idealize.SL.Sem
open Idealize.ShloMosaic.ValueIdx Cert.Attention Cert.KernelIdeal.Blocks

variable (m : (ℓ : Loc nD τ sig) → Buf (Elt Ideal) ℓ)

/-- What step t's key tile contributes at row p of its row tile, column h. -/
abbrev termAt (c : Dev nD) (t : Fin cfg0.N) (p : Fin 512) (h : Fin 1024) : EReal :=
  tileTerm (queries m c) (keys m c) (values m c) (batchOf t) (rowOf (rowTileOf t) p) h (keyTileOf t)

/-- At a first key tile the accumulator ends at zero plus that tile's term. -/
theorem first_step (c : Dev nD) (t : Fin cfg0.N) (h0 : t.val % 4 = 0) (p : Fin 512) (h : Fin 1024) :
    (outsAt0 m c t.val t.isLt).2 (ix2 p h) = 0 + termAt m c t p h := by
  have h1 : ¬t.val % 4 = 3 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p h)).trans ?_
  refine (Payload.step_apply (qblk m c t) (kblk m c t) (vblk m c t) _ p h).trans ?_
  rw [Payload.cleared_apply, tile_of_blocks]

/-- At a later key tile the accumulator ends at what the step before left plus this tile's term. -/
theorem later_step (c : Dev nD) (t : Fin cfg0.N) (h0 : ¬t.val % 4 = 0) (p : Fin 512) (h : Fin 1024) :
    (outsAt0 m c t.val t.isLt).2 (ix2 p h)
      = (outsAt0 m c (t.val - 1) (Nat.lt_of_le_of_lt (Nat.sub_le _ _) t.isLt)).2 (ix2 p h) + termAt m c t p h := by
  by_cases h1 : t.val % 4 = 3
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p h)).trans ?_
    refine (Payload.step_apply (qblk m c t) (kblk m c t) (vblk m c t) _ p h).trans ?_
    rw [tile_of_blocks]
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p h)).trans ?_
    refine (Payload.step_apply (qblk m c t) (kblk m c t) (vblk m c t) _ p h).trans ?_
    rw [tile_of_blocks]

/-- After step n, in batch b and row tile g, the accumulator holds the running sum over key tiles 0 … n mod 4. -/
theorem acc_eq (c : Dev nD) : ∀ (n : ℕ) (hn : n < cfg0.N) (b : Fin 8) (g : Fin 4), b.val = n / 16 → g.val = n / 4 % 4 →
    ∀ (p : Fin 512) (h : Fin 1024),
      (outsAt0 m c n hn).2 (ix2 p h) = running (queries m c) (keys m c) (values m c) b (rowOf g p) h (n % 4)
  | 0, hn, b, g, hb, hg, p, h => by
    have eb : batchOf ⟨0, hn⟩ = b := Fin.ext hb.symm
    have eg : rowTileOf ⟨0, hn⟩ = g := Fin.ext hg.symm
    have ek : keyTileOf ⟨0, hn⟩ = 0 := Fin.ext rfl
    rw [first_step m c ⟨0, hn⟩ rfl p h]
    show 0 + tileTerm _ _ _ (batchOf ⟨0, hn⟩) (rowOf (rowTileOf ⟨0, hn⟩) p) h (keyTileOf ⟨0, hn⟩) = _
    rw [eb, eg, ek]
    rfl
  | n + 1, hn, b, g, hb, hg, p, h => by
    have hN : n + 1 < 128 := lt_of_lt_of_eq hn steps
    have eb : batchOf ⟨n + 1, hn⟩ = b := Fin.ext hb.symm
    have eg : rowTileOf ⟨n + 1, hn⟩ = g := Fin.ext hg.symm
    by_cases h0 : (n + 1) % 4 = 0
    · have ek : keyTileOf ⟨n + 1, hn⟩ = 0 := Fin.ext h0
      rw [first_step m c ⟨n + 1, hn⟩ h0 p h, h0]
      show 0 + tileTerm _ _ _ (batchOf ⟨n + 1, hn⟩) (rowOf (rowTileOf ⟨n + 1, hn⟩) p) h (keyTileOf ⟨n + 1, hn⟩) = _
      rw [eb, eg, ek]
      rfl
    · have hs : n % 4 + 1 < 4 := by omega
      have ek : keyTileOf ⟨n + 1, hn⟩ = ⟨n % 4 + 1, hs⟩ := Fin.ext (by show (n + 1) % 4 = n % 4 + 1; omega)
      rw [later_step m c ⟨n + 1, hn⟩ h0 p h]
      show (outsAt0 m c n _).2 (ix2 p h) + tileTerm _ _ _ (batchOf ⟨n + 1, hn⟩) (rowOf (rowTileOf ⟨n + 1, hn⟩) p) h (keyTileOf ⟨n + 1, hn⟩) = _
      rw [acc_eq c n (Nat.lt_of_succ_lt hn) b g (by omega) (by omega) p h, eb, eg, ek,
        show (n + 1) % 4 = n % 4 + 1 by omega]
      show _ = running _ _ _ b (rowOf g p) h (n % 4) + (if hs' : n % 4 + 1 < 4 then tileTerm _ _ _ b (rowOf g p) h ⟨n % 4 + 1, hs'⟩ else 0)
      rw [dif_pos hs]

/-- So after a step on the last key tile the accumulator holds the result's entries for its rows. -/
theorem acc_last_tile (c : Dev nD) (t : Fin cfg0.N) (h1 : t.val % 4 = 3) (p : Fin 512) (h : Fin 1024) :
    (outsAt0 m c t.val t.isLt).2 (ix2 p h)
      = out (queries m c) (keys m c) (values m c) (ix3 (batchOf t) (rowOf (rowTileOf t) p) h) := by
  rw [acc_eq m c t.val t.isLt (batchOf t) (rowTileOf t) rfl rfl p h, h1, out_eq_running]

/-- And the output block that step stores is the accumulator under a leading unit axis: the same entries. -/
theorem out_last_tile (c : Dev nD) (t : Fin cfg0.N) (h1 : t.val % 4 = 3) (u : Fin 1) (p : Fin 512) (h : Fin 1024) :
    (outsAt0 m c t.val t.isLt).1 (ix3 u p h)
      = out (queries m c) (keys m c) (values m c) (ix3 (batchOf t) (rowOf (rowTileOf t) p) h) := by
  have h0 : ¬t.val % 4 = 0 := by omega
  rw [← acc_last_tile m c t h1 p h, later_step m c t h0 p h, outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix3 u p h)).trans ?_
  refine (Payload.copy_apply _ u p h).trans ?_
  refine (Payload.step_apply (qblk m c t) (kblk m c t) (vblk m c t) _ p h).trans ?_
  rw [tile_of_blocks]

/-- The same at any index of the output block. -/
theorem out_last_tile_at (c : Dev nD) (t : Fin cfg0.N) (h1 : t.val % 4 = 3) (z : S1x512x1024.Idx) :
    (outsAt0 m c t.val t.isLt).1 z
      = out (queries m c) (keys m c) (values m c) (ix3 (batchOf t) (rowOf (rowTileOf t) (z 1)) (z 2)) := by
  obtain ⟨u, p, h, rfl⟩ : ∃ (u : Fin 1) (p : Fin 512) (h : Fin 1024), z = ix3 u p h := ⟨z 0, z 1, z 2, eq_ix3 z⟩
  exact out_last_tile m c t h1 u p h

end Cert.KernelIdeal.Accumulate

end
-- ==== Proof.Result.lean ====
/-
  The result array after the kernel's run. Only the steps on a last key tile write their output block back,
  and that block is rows g · 512 … g · 512 + 511 of batch b of the result array: it holds the attention product's
  entries for exactly those rows. The 32 such blocks (8 batches by 4 row tiles) tile the array — row r of
  batch b lies in the block of the step 16 · b + 4 · (r / 512) + 3 — so the array ends holding the attention
  product of the queries, keys and values the kernel was launched with, which the run leaves unchanged.
-/
import proofs.«165886_j56736517980684_1_alg».proof.Proof.Accumulate

noncomputable section

namespace Cert.KernelIdeal.Result

open Cert.KernelIdeal Cert.KernelIdeal.Gen Idealize.ShloMosaic Idealize.ShloMosaic.TcCoe Idealize.SL.Sem
open Idealize.ShloMosaic.ValueIdx Cert.Attention Cert.KernelIdeal.Blocks Cert.KernelIdeal.Accumulate
open Idealize.ShloMosaic.Pipeline (Dat)

variable (m : (ℓ : Loc nD τ sig) → Buf (Elt Ideal) ℓ) (ρ : Dev nD → PrngReg)

/-- The attention product of the arrays the kernel was launched with. -/
abbrev result (c : Dev nD) : Arr := out (queries m c) (keys m c) (values m c)

/-- What a step on a last key tile writes back is its block of the attention product. -/
theorem written_back (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  obtain ⟨-, -, -, -, -, -, -, -, -, e0, e1, e2⟩ := index_maps t
  rw [Value.flushed3 m c t]
  funext y
  show (outsAt0 m c t.val t.isLt).1 ((cfg0.win 3).xinj (grid0.coords t) y) = result m c (((cfg0.win 3).blk t).view.emb y)
  refine (out_last_tile_at m c t h1 _).trans ?_
  refine congrArg (result m c) ?_
  funext a; apply Fin.ext
  have hu : (y 0).val < 1 := (y 0).isLt
  match a with
  | ⟨0, _⟩ => show t.val / 16 = win0_3.index t (0 : Fin 3) * 1 + 1 * (y 0).val; omega
  | ⟨1, _⟩ => show t.val / 4 % 4 * 512 + (y 1).val = win0_3.index t (1 : Fin 3) * 512 + 1 * (y 1).val; omega
  | ⟨2, _⟩ => show (y 2).val = win0_3.index t (2 : Fin 3) * 1024 + 1 * (y 2).val; omega

/-- An index of the result array is in step t's block iff each coordinate is in the block's range. -/
theorem mem_block (t : Fin cfg0.N) (i : S8x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v0).slice (win0_3.rect t)).set ↔ _
  rw [View.set_slice_whole, Rect.mem_set_unit]
  exact Iff.rfl

/-- Every index of the result array lies in the block some writing step writes back. -/
theorem covered (i : S8x2048x1024.Idx) :
    ∃ t : Fin cfg0.N, (cfg0.win 3).flush t = true ∧ i ∈ ((cfg0.win 3).blk t).view.set := by
  have hb : (i 0).val < 8 := (i 0).isLt
  have hr : (i 1).val < 2048 := (i 1).isLt
  have hh : (i 2).val < 1024 := (i 2).isLt
  have hN := steps
  obtain ⟨t, ht⟩ : ∃ t : Fin cfg0.N, t.val = 16 * (i 0).val + 4 * ((i 1).val / 512) + 3 :=
    ⟨⟨16 * (i 0).val + 4 * ((i 1).val / 512) + 3, by omega⟩, rfl⟩
  obtain ⟨-, -, -, -, -, -, -, -, -, e0, e1, e2⟩ := index_maps t
  refine ⟨t, (flush0_3 t).mpr (by omega), ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The result array after the run is the attention product. -/
theorem final (c : Dev nD) : (dats m 0 c).arrAt 3 cfg0.N = result m c :=
  (dats m 0 c).arrAt_eq_of_cover 3 (result m c) (written_back m c) covered

/-- The run, read: the result array at the attention product of the launch arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.Reference.lean ====
/-
  The reference computes the same function. Its first product contracts the feature axis of the queries with
  that of the keys, batch by batch: entry (b, r, n) is the score of row r against key n. Its second product
  contracts the key axis of the scores with that of the values: entry (b, r, h) is the sum over all 2048 keys
  of score · value. Read at an index, that is the attention product.
-/
import proofs.«165886_j56736517980684_1_alg».proof.Proof.Gen.ReferenceIdeal.Read
import proofs.«165886_j56736517980684_1_alg».proof.Proof.Attention

noncomputable section

namespace Cert.ReferenceIdeal.Spec

open Cert.ReferenceIdeal Cert.ReferenceIdeal.Read Idealize.ShloMosaic Idealize.ShloMosaic.TcCoe
open Idealize.ShloMosaic.ValueIdx Cert.Attention

/-- The reference's result, as a function of the queries, keys and values, is the attention product. -/
theorem result_eq (q k v : Arr) : val_main_v1 (F := Ideal) q k v = out q k v := by
  funext i
  rw [val_main_v1_apply]
  unfold out
  refine Finset.sum_congr rfl fun n _ => ?_
  rw [val_main_v0_apply]
  unfold score
  have eq : ∀ f : Fin 1024, lidx_main_v0 (lidx_main_v1 i n) f = ix3 (i 0) (i 1) f := fun f =>
    funext fun a => by match a with | ⟨0, _⟩ => rfl | ⟨1, _⟩ => rfl | ⟨2, _⟩ => rfl
  have ek : ∀ f : Fin 1024, ridx_main_v0 (lidx_main_v1 i n) f = ix3 (i 0) n f := fun f =>
    funext fun a => by match a with | ⟨0, _⟩ => rfl | ⟨1, _⟩ => rfl | ⟨2, _⟩ => rfl
  have ev : ridx_main_v1 i n = ix3 (i 0) n (i 2) :=
    funext fun a => by match a with | ⟨0, _⟩ => rfl | ⟨1, _⟩ => rfl | ⟨2, _⟩ => rfl
  rw [ev]
  refine congrArg (· * _) ?_
  refine Finset.sum_congr rfl fun f _ => ?_
  rw [eq, ek]
  rfl

end Cert.ReferenceIdeal.Spec

end
-- ==== Proof.lean ====
/-
  The kernel computes attention without scaling or softmax, out = (Q · Kᵀ) · V, batch by batch, with Q, K, V of
  shape [8, 2048, 1024]: entry (b, r, h) of the result is the sum over the 2048 keys n of
  (∑ f, Q[b, r, f] · K[b, n, f]) · V[b, n, h]. The reference computes it with two whole-array products. The
  kernel cuts the query rows into 4 tiles of 512 and the keys into 4 tiles of 512; for each batch and row tile
  it walks the key tiles in order, keeping a 512 × 1024 accumulator that it clears at the first key tile, to
  which it adds each key tile's (scores · values), and which it copies to the result block after the last.
  Its casts to a shorter float format change nothing over the extended reals, where a format change is the
  identity.

  So the kernel's sum over the keys is the reference's sum regrouped: 2048 = 4 · 512 keys as four tile sums
  added one after the other onto zero. Addition of extended reals is commutative and associative with
  neutral element zero at the infinities too, and no other law is used: the precondition that the inputs
  are finite is not needed. The span and positional-encoding arguments are read by neither program.

  The modules: Attention (the function and the regrouping), Pieces (what one grid step leaves, case by case),
  Payload (a step's arithmetic at an entry), Blocks (where a step's blocks sit in the arrays), Accumulate (the
  accumulator after each step, by induction on the step), Result (the result array after the run), Reference
  (the reference's two products at an entry). No rewrite was applied when the kernel was idealized, so there
  is nothing to preserve.
-/
import proofs.«165886_j56736517980684_1_alg».proof.Defs
import proofs.«165886_j56736517980684_1_alg».proof.Proof.Gen.Kernel
import proofs.«165886_j56736517980684_1_alg».proof.Proof.Gen.Kernel.Frame
import proofs.«165886_j56736517980684_1_alg».proof.Proof.Gen.KernelIdeal
import proofs.«165886_j56736517980684_1_alg».proof.Proof.Gen.KernelIdeal.Frame
import proofs.«165886_j56736517980684_1_alg».proof.Proof.Gen.KernelIdeal.Value
import proofs.«165886_j56736517980684_1_alg».proof.Proof.Gen.ReferenceIdeal
import proofs.«165886_j56736517980684_1_alg».proof.Proof.Gen.ReferenceIdeal.Run
import proofs.«165886_j56736517980684_1_alg».proof.Proof.Gen.ReferenceIdeal.Read
import proofs.«165886_j56736517980684_1_alg».proof.Proof.Gen.Pre_finite_inputs
import proofs.«165886_j56736517980684_1_alg».proof.Proof.Result
import proofs.«165886_j56736517980684_1_alg».proof.Proof.Reference
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run ends with its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories that agree on the arguments, the kernel's result array ends at the attention product of the
    queries, keys and values it was launched with, and the reference's result at the attention product of
    its own, which are the same arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Spec.result_eq,
    (hagree c).1, (hagree c).2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
